-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x8192 : Shape := ⟨2, ![8192, 8192]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Gaussian.lean ====
/-
  The Gaussian (radial basis function) Gram matrix over the extended reals.

  For two families of rows of length 256, the entry at `(r, c)` is
      exp (-(1/256) · max (‖x_r‖² + ‖s_c‖² - 2 · ⟨x_r, s_c⟩) 0),
  where `‖x_r‖²` is the sum of the squares of row `r`, `⟨x_r, s_c⟩` the sum of the products of the two rows, and the
  three constants are kept as the words the programs spell (`-1/256`, `2`, `0`): both programs spell the same
  words, so none is ever evaluated. The entry depends on row `r` of the first family and row `c` of the second and
  on nothing else, which is why a tile of rows against a tile of rows computes a tile of the whole matrix.

  Also here: three readings of a column vector that the library states only for row vectors — a vector made a
  column, a column broadcast along the rows, and a column transposed into a row.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Gaussian

open Idealize.ShloMosaic Idealize.ShloMosaic.ValueIdx

/-- The squared length of row `r`: the sum over the 256 columns of the entry squared. -/
def sqLen {n : ℕ} (x : (⟨2, ![n, 256]⟩ : Shape).Idx → EReal) (r : Fin n) : EReal :=
  ∑ k : Fin 256, x (ix2 r k) * x (ix2 r k)

/-- The inner product of row `r` of `x` with row `c` of `s`. -/
def rowDot {n n' : ℕ} (x : (⟨2, ![n, 256]⟩ : Shape).Idx → EReal) (s : (⟨2, ![n', 256]⟩ : Shape).Idx → EReal)
    (r : Fin n) (c : Fin n') : EReal :=
  ∑ k : Fin 256, x (ix2 r k) * s (ix2 c k)

/-- The Gaussian of two squared lengths `a`, `b` and an inner product `c`:
    `exp (-(1/256) · max (a + b - 2 · c) 0)`, the constants as the words both programs spell. -/
def gauss (a b c : EReal) : EReal :=
  Ideal.exp (Ideal.ofBits .f32 0xBB800000#32
    * max (a + b - Ideal.ofBits .f32 0x40000000#32 * c) (Ideal.ofBits .f32 0x00000000#32))

/-- The whole Gram matrix of the 8192 rows of `x` against the 8192 rows of `s`, entry by entry. -/
def gram (x s : (⟨2, ![8192, 256]⟩ : Shape).Idx → EReal) : (⟨2, ![8192, 8192]⟩ : Shape).Idx → EReal :=
  fun i => gauss (sqLen x (i 0)) (sqLen s (i 1)) (rowDot x s (i 0) (i 1))

theorem gram_ix2 (x s : (⟨2, ![8192, 256]⟩ : Shape).Idx → EReal) (r c : Fin 8192) :
    gram x s (ix2 r c) = gauss (sqLen x r) (sqLen s c) (rowDot x s r c) := rfl

/-- The squared length only reads its own row: rows that agree have the same squared length. -/
theorem sqLen_congr {n n' : ℕ} (x : (⟨2, ![n, 256]⟩ : Shape).Idx → EReal) (y : (⟨2, ![n', 256]⟩ : Shape).Idx → EReal)
    (r : Fin n) (r' : Fin n') (h : ∀ k : Fin 256, x (ix2 r k) = y (ix2 r' k)) : sqLen x r = sqLen y r' :=
  Finset.sum_congr rfl fun k _ => by rw [h k]

/-- The inner product only reads its two rows. -/
theorem rowDot_congr {n n' m m' : ℕ} (x : (⟨2, ![n, 256]⟩ : Shape).Idx → EReal) (y : (⟨2, ![n', 256]⟩ : Shape).Idx → EReal)
    (s : (⟨2, ![m, 256]⟩ : Shape).Idx → EReal) (u : (⟨2, ![m', 256]⟩ : Shape).Idx → EReal)
    (r : Fin n) (r' : Fin n') (c : Fin m) (c' : Fin m')
    (hx : ∀ k : Fin 256, x (ix2 r k) = y (ix2 r' k)) (hs : ∀ k : Fin 256, s (ix2 c k) = u (ix2 c' k)) :
    rowDot x s r c = rowDot y u r' c' :=
  Finset.sum_congr rfl fun k _ => by rw [hx k, hs k]

/-! ## A column vector read at an index -/

variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed into the row `[1, a]` reads, at `(u, q)`, the column at `q`. -/
theorem transpose_a1_1a_apply {a : ℕ} (x : (⟨2, ![a, 1]⟩ : Shape).Idx → α)
    (h : (⟨2, ![a, 1]⟩ : Shape).Transposes [1, 0] ⟨2, ![1, a]⟩) (u : Fin 1) (q : Fin a) :
    transpose ⟨2, ![1, a]⟩ [1, 0] x h (ix2 u q) = x (ix2 q u) :=
  transpose_ix2_apply x h u q

end Cert.Gaussian

end
-- ==== Proof.Tile.lean ====
/-
  One tile of the kernel, read at an index.

  The kernel's body takes a tile `x0` of 1024 rows of the first array and a tile `x1` of 1024 rows of the second and
  stores one 1024 × 1024 tile of the result. Its arithmetic, the one pure term `k0_pay1 x0 x1`, is at `(p, q)`

      exp (-(1/256) · max (‖x0_p‖² + ‖x1_q‖² - 2 · ⟨x0_p, x1_q⟩) 0):

  the two row sums of squares are lane reductions (the second made a column, then transposed into a row, so that the
  two broadcast against each other), the inner product is the matrix unit's product of the two tiles narrowed to bf16,
  contracted along the columns of both and accumulated into zeros — over the extended reals narrowing is the identity
  and the product is the textbook sum — and the rest is pointwise. So the tile is the Gaussian of `Gaussian.lean` of
  row `p` of `x0` and row `q` of `x1`.
-/
import proofs.«123520_j65481071400087_1_alg».proof.Proof.Gen.KernelIdeal.Skeleton
import proofs.«123520_j65481071400087_1_alg».proof.Proof.Gaussian
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.Gaussian

/-! ## The lane sums of squares -/

/-- The lane reduction of a tile's squares, at row `p`, is the squared length of that row. -/
theorem rowsq_apply (x : FVec Ideal S1024x256 .f32) (p : Fin 1024) :
    multiReduction (F := Ideal) .add [1] S1024 (mulf x x) 0x00000000#32 reduces_S1024x256_S1024 (.inl rfl) rfl (ix1 p)
      = sqLen x p := by
  refine (Ideal.multiReduction_add_single (mulf x x) 0x00000000#32 reduces_S1024x256_S1024 (.inl rfl) rfl (ix1 p)).trans ?_
  refine Finset.sum_congr rfl fun k _ => ?_
  exact congrArg (fun i => x i * x i) (funext fun a => Fin.ext (by match a with | ⟨0, _⟩ => rfl | ⟨1, _⟩ => rfl))

/-! ## The matrix unit's product: both tiles contracted along their columns -/

theorem lhs_tile_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_tile_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_tile_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_tile_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- The product of the two narrowed tiles into zeros, at `(p, q)`, is the inner product of row `p` of the first with
    row `q` of the second. -/
theorem cross_apply (x0 x1 : FVec Ideal S1024x256 .f32) (p q : Fin 1024) :
    matmul (F := Ideal) dot_S1024x256_S1024x256_S1024x1024_1_1_0_0_n_n none (truncf .bf16 x0 bitsLt_bf16_f32)
        (truncf .bf16 x1 bitsLt_bf16_f32) (constant S1024x1024 .f32 0x00000000#32) (ix2 p q)
      = rowDot x0 x1 p q := by
  simp only [matmul]
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q) ((contrEquiv1 dot_S1024x256_S1024x256_S1024x1024_1_1_0_0_n_n 256 rfl rfl).symm k) = ix2 p k := funext fun a => Fin.ext (by
    match a with
    | ⟨0, _⟩ => exact lhs_tile_0 _ _
    | ⟨1, _⟩ => exact (lhs_tile_1 _ _).trans hk)
  have er : dot_S1024x256_S1024x256_S1024x1024_1_1_0_0_n_n.rhsIdx (ix2 p q) ((contrEquiv1 dot_S1024x256_S1024x256_S1024x1024_1_1_0_0_n_n 256 rfl rfl).symm k) = ix2 q k := funext fun a => Fin.ext (by
    match a with
    | ⟨0, _⟩ => exact rhs_tile_0 _ _
    | ⟨1, _⟩ => exact (rhs_tile_1 _ _).trans hk)
  rw [el, er]
  rfl

/-! ## The two squared lengths laid against each other -/

/-- The first tile's squared lengths, made a column and broadcast along the rows, read at `(p, q)` the squared length
    of row `p`. -/
theorem col_apply (x : FVec Ideal S1024x256 .f32) (p q : Fin 1024) :
    broadcastTo S1024x1024 (shapeCast S1024x1
        (multiReduction (F := Ideal) .add [1] S1024 (mulf x x) 0x00000000#32 reduces_S1024x256_S1024 (.inl rfl) rfl)
        shapeCasts_S1024_S1024x1) broadcasts_S1024x1_S1024x1024 (ix2 p q)
      = sqLen x p := by
  rw [broadcastTo_a1_ab_apply, shapeCast_a_a1_apply]
  exact rowsq_apply x p

/-- The second tile's squared lengths, made a column, transposed into a row and broadcast down the columns, read at
    `(p, q)` the squared length of row `q`. -/
theorem row_apply (x : FVec Ideal S1024x256 .f32) (p q : Fin 1024) :
    broadcastTo S1024x1024 (transpose S1x1024 [1, 0] (shapeCast S1024x1
        (multiReduction (F := Ideal) .add [1] S1024 (mulf x x) 0x00000000#32 reduces_S1024x256_S1024 (.inl rfl) rfl)
        shapeCasts_S1024_S1024x1) transposes_S1024x1_p1_0_S1x1024) broadcasts_S1x1024_S1024x1024 (ix2 p q)
      = sqLen x q := by
  rw [broadcastTo_1b_ab_apply, transpose_a1_1a_apply, shapeCast_a_a1_apply]
  exact rowsq_apply x q

/-! ## The tile -/

/-- THE TILE AT AN INDEX: what the body stores at `(p, q)` is the Gaussian of row `p` of the first tile and row `q` of
    the second. -/
theorem pay_apply (x0 x1 : Vec Ideal S1024x256 .f32) (p q : Fin 1024) :
    k0_pay1 (F := Ideal) x0 x1 (ix2 p q) = gauss (sqLen x0 p) (sqLen x1 q) (rowDot x0 x1 p q) := by
  unfold k0_pay1 gauss
  show Ideal.exp (Ideal.ofBits .f32 0xBB800000#32 * max (_ + _ - Ideal.ofBits .f32 0x40000000#32 * _) (Ideal.ofBits .f32 0x00000000#32)) = _
  rw [col_apply x0 p q, row_apply x1 p q, cross_apply x0 x1 p q]

/-- A TILE IS A PIECE OF THE GRAM MATRIX: if row `p` of the first tile is row `1024·bi + p` of `X` and row `q` of the
    second tile is row `1024·bj + q` of `S`, then the tile at `j` is the Gram matrix of `X` and `S` at the entry
    `(1024·bi + j₀, 1024·bj + j₁)`: the Gaussian reads nothing but those two rows. -/
theorem pay_eq_gram (X S : (⟨2, ![8192, 256]⟩ : Shape).Idx → EReal) (x0 x1 : Vec Ideal S1024x256 .f32) (bi bj : ℕ)
    (h0 : ∀ (p : Fin 1024) (k : Fin 256) (r : Fin 8192), r.val = bi * 1024 + p.val → x0 (ix2 p k) = X (ix2 r k))
    (h1 : ∀ (q : Fin 1024) (k : Fin 256) (r : Fin 8192), r.val = bj * 1024 + q.val → x1 (ix2 q k) = S (ix2 r k))
    (j : S1024x1024.Idx) (i : S8192x8192.Idx)
    (hi0 : (i 0).val = bi * 1024 + (j 0).val) (hi1 : (i 1).val = bj * 1024 + (j 1).val) :
    k0_pay1 (F := Ideal) x0 x1 j = gram X S i := by
  obtain ⟨p, q, rfl⟩ : ∃ (p q : Fin 1024), j = ix2 p q := ⟨j 0, j 1, eq_ix2 j⟩
  obtain ⟨r, c, rfl⟩ : ∃ (r c : Fin 8192), i = ix2 r c := ⟨i 0, i 1, eq_ix2 i⟩
  rw [pay_apply, gram_ix2, sqLen_congr x0 X p r (fun k => h0 p k r hi0), sqLen_congr x1 S q c (fun k => h1 q k c hi1),
    rowDot_congr x0 X x1 S p r q c (fun k => h0 p k r hi0) (fun k => h1 q k c hi1)]

end Cert.KernelIdeal.Tile

end
-- ==== Proof.GramBlocks.lean ====
/-
  From tiles to the whole array.

  The grid has 8 × 8 points. At the point with block indices `(bi, bj)` the first window brings rows
  `1024·bi … 1024·bi + 1023` of the first array, the second window rows `1024·bj … 1024·bj + 1023` of the second, and
  the output window writes back the tile of the result at rows `1024·bi …` and columns `1024·bj …`. By `Tile.lean` that
  tile is the Gram matrix of the two arrays read through the output block; the 64 output blocks cover the 8192 × 8192
  array (the block of an entry `(r, c)` is `(r / 1024, c / 1024)`), so the array ends holding the whole Gram matrix.
-/
import proofs.«123520_j65481071400087_1_alg».proof.Proof.Gen.KernelIdeal.Value
import proofs.«123520_j65481071400087_1_alg».proof.Proof.Tile
import Idealize.ShloMosaic.Lib.Pipeline.Value

noncomputable section

namespace Cert.KernelIdeal.GramBlocks

open Cert.KernelIdeal Cert.KernelIdeal.Gen Idealize.ShloMosaic Idealize.ShloMosaic.TcCoe Idealize.SL.Sem
open Idealize.ShloMosaic.Pipeline (Dat)
open Idealize.ShloMosaic.ValueIdx Cert.Gaussian

variable (m : (ℓ : Loc nD τ sig) → Buf (Elt Ideal) ℓ) (ρ : Dev nD → PrngReg)

theorem offsets_zero : (![0, 0] : Fin 2 → Nat) = fun _ => 0 := funext fun a => by fin_cases a <;> rfl

/-- The index maps over the grid: the first window's row block is the output's row block, the second window's row block
    is the output's column block, neither input is cut along its columns, and the output's block indices are below 8. -/
theorem index_maps : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every pair of block indices below 8 is some point's. -/
theorem every_block : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- Row `p` of the first window's block at point `t` is row `1024·bi + p` of the first array. -/
theorem xblock_row (c : Dev nD) (t : Fin cfg0.N) (p : Fin 1024) (k : Fin 256) (r : Fin 8192)
    (hr : r.val = win0_2.index t (0 : Fin 2) * 1024 + p.val) :
    (iblk m c 0 t : Vec Ideal S1024x256 .f32) (ix2 p k) = V m c main_arg0 (ix2 r k) := by
  obtain ⟨e0, e1, e2, e3, e4, e5⟩ := index_maps t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 1024 + 1 * p.val = r.val; omega
  | ⟨1, _⟩ => show win0_0.index t (1 : Fin 2) * 256 + 1 * k.val = k.val; omega

/-- Row `q` of the second window's block at point `t` is row `1024·bj + q` of the second array. -/
theorem sblock_row (c : Dev nD) (t : Fin cfg0.N) (q : Fin 1024) (k : Fin 256) (r : Fin 8192)
    (hr : r.val = win0_2.index t (1 : Fin 2) * 1024 + q.val) :
    (iblk m c 1 t : Vec Ideal S1024x256 .f32) (ix2 q k) = V m c main_arg1 (ix2 r k) := by
  obtain ⟨e0, e1, e2, e3, e4, e5⟩ := index_maps t
  show V m c main_arg1 (((cfg0.win 1).blk t).view.emb (ix2 q k)) = V m c main_arg1 (ix2 r k)
  refine congrArg (V m c main_arg1) (funext fun a => Fin.ext ?_)
  match a with
  | ⟨0, _⟩ => show win0_1.index t (0 : Fin 2) * 1024 + 1 * q.val = r.val; omega
  | ⟨1, _⟩ => show win0_1.index t (1 : Fin 2) * 256 + 1 * k.val = k.val; omega

/-- WHAT POINT `t` WRITES BACK is block `t` of the Gram matrix of the two arrays. -/
theorem flushed_eq (c : Dev nD) (t : Fin cfg0.N) :
    (dats m 0 c).flushed 2 t
      = ((cfg0.win 2).blk t).view.read (Elt Ideal) (gram (V m c main_arg0) (V m c main_arg1)) := by
  rw [Cert.KernelIdeal.Value.flushed2]
  unfold out0_2
  rw [View.canon_unit_zero offsets_zero]
  simp only [View.ld_unit_zero (S := S1024x256) offsets_zero]
  funext j
  show k0_pay1 (F := Ideal) (iblk m c 0 t) (iblk m c 1 t) j
    = gram (V m c main_arg0) (V m c main_arg1) (((cfg0.win 2).blk t).view.emb j)
  refine Cert.KernelIdeal.Tile.pay_eq_gram (V m c main_arg0) (V m c main_arg1) (iblk m c 0 t) (iblk m c 1 t)
    (win0_2.index t (0 : Fin 2)) (win0_2.index t (1 : Fin 2)) (fun p k r hr => xblock_row m c t p k r hr)
    (fun q k r hr => sblock_row m c t q k r hr) j (((cfg0.win 2).blk t).view.emb j) ?_ ?_
  · show win0_2.index t (0 : Fin 2) * 1024 + 1 * (j 0).val = win0_2.index t (0 : Fin 2) * 1024 + (j 0).val
    omega
  · show win0_2.index t (1 : Fin 2) * 1024 + 1 * (j 1).val = win0_2.index t (1 : Fin 2) * 1024 + (j 1).val
    omega

/-- An entry of the array is in point `t`'s output block iff each coordinate is in the block's range. -/
theorem mem_block (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- THE COVER: the entry `(r, c)` is in the output block of the point with block indices `(r / 1024, c / 1024)`. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := every_block ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_block]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- THE ARRAY after the run is the Gram matrix of the two argument arrays. -/
theorem final (c : Dev nD) :
    (dats m 0 c).arrAt 2 cfg0.N
      = gram (m ((c : Thread nD τ).loc main_arg0)) (m ((c : Thread nD τ).loc main_arg1)) :=
  (dats m 0 c).arrAt_eq_of_cover 2 (gram (V m c main_arg0) (V m c main_arg1)) (fun t _ => flushed_eq m c t) covered

/-- The kernel's run, read: the result array at the Gram matrix of the arguments, the arguments unchanged. -/
theorem run : θ_run defs (onTc (τ := τ) (main (F := Ideal))) ⟨m, fun _ => 0, ρ⟩ fun r => ∀ c : Dev nD,
      r.2.mem ((c : Thread nD τ).loc main_v0)
        = gram (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.GramBlocks

end
-- ==== Proof.RefGram.lean ====
/-
  The reference program's result is the Gram matrix.

  The reference squares both arrays, sums each row (a host sum started at the word `0`), lays the first family's sums
  down a column and the second's along a row, adds them, subtracts twice the `dot_general` of the two arrays contracted
  along their columns, clamps at `0`, scales by `-1/256` and takes the exponential. Read one operation at a time at the
  entry `(r, c)`, that is the Gaussian of row `r` of the first array and row `c` of the second: the broadcasts keep the
  row's or the column's coordinate, the host sums and the contraction are sums over the 256 columns, and `0 + a = a` on
  the extended reals.
-/
import proofs.«123520_j65481071400087_1_alg».proof.Proof.Gen.ReferenceIdeal.Read
import proofs.«123520_j65481071400087_1_alg».proof.Proof.Gaussian
import Idealize.ShloMosaic.Lib.ValueIdx
import Idealize.ShloMosaic.PureOps.Ideal.Laws

noncomputable section

namespace Cert.ReferenceIdeal.RefGram

open Cert.ReferenceIdeal Cert.ReferenceIdeal.Gen Cert.ReferenceIdeal.Read Idealize.ShloMosaic Idealize.ShloMosaic.ValueIdx
open Cert.Gaussian

/-! ## Where each operand is read -/

/-- The first family's row sum, found from `(r, c)` through the column and its broadcast, sums row `r`. -/
theorem idx_sqx (r c : Fin 8192) (k : Fin 256) : idx_main_v1 (idx_main_v2 (idx_main_v7 (ix2 r c))) k = ix2 r k :=
  funext fun a => Fin.ext (by match a with | ⟨0, _⟩ => rfl | ⟨1, _⟩ => rfl)

/-- The second family's row sum, found from `(r, c)` through the row and its broadcast, sums row `c`. -/
theorem idx_sqs (r c : Fin 8192) (k : Fin 256) : idx_main_v4 (idx_main_v5 (idx_main_v8 (ix2 r c))) k = ix2 c k :=
  funext fun a => Fin.ext (by match a with | ⟨0, _⟩ => rfl | ⟨1, _⟩ => rfl)

/-- The contraction at `(r, c)` reads row `r` of the left operand … -/
theorem idx_dotl (r c : Fin 8192) (k : Fin 256) : lidx_main_v6 (ix2 r c) k = ix2 r k :=
  funext fun a => Fin.ext (by match a with | ⟨0, _⟩ => rfl | ⟨1, _⟩ => rfl)

/-- … and row `c` of the right one. -/
theorem idx_dotr (r c : Fin 8192) (k : Fin 256) : ridx_main_v6 (ix2 r c) k = ix2 c k :=
  funext fun a => Fin.ext (by match a with | ⟨0, _⟩ => rfl | ⟨1, _⟩ => rfl)

/-! ## The result at an entry, and as a whole -/

/-- The reference's result at `(r, c)` is the Gaussian of row `r` of `x` and row `c` of `s`. -/
theorem ref_apply (x s : (⟨S8192x256, .f32⟩ : BufTy).Contents (Elt Ideal)) (r c : Fin 8192) :
    val_main_v17 (F := Ideal) x s (ix2 r c) = gauss (sqLen x r) (sqLen s c) (rowDot x s r c) := by
  rw [val_main_v17_apply, val_main_v16_apply, val_main_v15_apply, val_main_cst_3_apply, val_main_v14_apply,
    val_main_v13_apply, val_main_cst_2_apply, val_main_v12_apply, val_main_v9_apply, val_main_v7_apply,
    val_main_v2_apply, val_main_v1_apply, val_main_cst_apply, val_main_v8_apply, val_main_v5_apply, val_main_v4_apply,
    val_main_cst_0_apply, val_main_v11_apply, val_main_v10_apply, val_main_cst_1_apply, val_main_v6_apply]
  simp only [idx_sqx, idx_sqs, idx_dotl, idx_dotr, val_main_v0_apply, val_main_v3_apply]
  unfold gauss sqLen rowDot
  show Ideal.exp (Ideal.ofBits .f32 0xBB800000#32
      * max ((Ideal.ofBits .f32 0x00000000#32 + _) + (Ideal.ofBits .f32 0x00000000#32 + _) - Ideal.ofBits .f32 0x40000000#32 * _)
          (Ideal.ofBits .f32 0x00000000#32)) = _
  rw [Ideal.ofBits_zero_f32, zero_add, zero_add]
  rfl

/-- So the reference's result array is the Gram matrix of its two arguments. -/
theorem ref_eq_gram (x s : (⟨S8192x256, .f32⟩ : BufTy).Contents (Elt Ideal)) :
    val_main_v17 (F := Ideal) x s = gram x s := by
  funext i
  obtain ⟨r, c, rfl⟩ : ∃ (r c : Fin 8192), i = ix2 r c := ⟨i 0, i 1, eq_ix2 i⟩
  rw [gram_ix2]
  exact ref_apply x s r c

end Cert.ReferenceIdeal.RefGram

end
-- ==== Proof.lean ====
/-
  A Gaussian (radial basis function) Gram matrix, tile by tile, against the whole matrix.

  The kernel takes two 8192 × 256 arrays. On an 8 × 8 grid, each point takes a tile of 1024 rows of each array and
  stores one 1024 × 1024 tile of
      K (r, c) = exp (-(1/256) · max (‖x_r‖² + ‖s_c‖² - 2 · ⟨x_r, s_c⟩) 0),
  its inner products by the matrix unit on operands narrowed to bf16. The reference computes the same expression on the
  whole arrays with one `dot_general`. Over the extended reals narrowing is the identity, the matrix unit's product
  into zeros and the `dot_general` are the same sum over the 256 columns, the lane sums and the host sums are the same
  row sums, and both programs spell the same three constants; an entry reads only row `r` of the first array and row
  `c` of the second, so each tile is a piece of the whole matrix and the 64 tiles cover it. No law of arithmetic is
  used beyond `0 + a = a`, so the precondition is never opened.

  `Gaussian.lean` states the matrix, `Tile.lean` reads one tile at an index, `GramBlocks.lean` assembles the tiles into
  the kernel's result array, `RefGram.lean` reads the reference's result; here are the five claims.
-/
import proofs.«123520_j65481071400087_1_alg».proof.Defs
import proofs.«123520_j65481071400087_1_alg».proof.Proof.Gen.Kernel
import proofs.«123520_j65481071400087_1_alg».proof.Proof.Gen.Kernel.Skeleton
import proofs.«123520_j65481071400087_1_alg».proof.Proof.Gen.Kernel.Launch
import proofs.«123520_j65481071400087_1_alg».proof.Proof.Gen.Kernel.Points
import proofs.«123520_j65481071400087_1_alg».proof.Proof.Gen.Kernel.Frame
import proofs.«123520_j65481071400087_1_alg».proof.Proof.Gen.KernelIdeal
import proofs.«123520_j65481071400087_1_alg».proof.Proof.Gen.KernelIdeal.Skeleton
import proofs.«123520_j65481071400087_1_alg».proof.Proof.Gen.KernelIdeal.Launch
import proofs.«123520_j65481071400087_1_alg».proof.Proof.Gen.KernelIdeal.Points
import proofs.«123520_j65481071400087_1_alg».proof.Proof.Gen.KernelIdeal.Frame
import proofs.«123520_j65481071400087_1_alg».proof.Proof.Gen.ReferenceIdeal
import proofs.«123520_j65481071400087_1_alg».proof.Proof.Gen.Pre_finite_inputs
import proofs.«123520_j65481071400087_1_alg».proof.Proof.Gen.KernelIdeal.Value
import proofs.«123520_j65481071400087_1_alg».proof.Proof.Gen.ReferenceIdeal.Run
import proofs.«123520_j65481071400087_1_alg».proof.Proof.Gen.ReferenceIdeal.Read
import proofs.«123520_j65481071400087_1_alg».proof.Proof.Gaussian
import proofs.«123520_j65481071400087_1_alg».proof.Proof.Tile
import proofs.«123520_j65481071400087_1_alg».proof.Proof.GramBlocks
import proofs.«123520_j65481071400087_1_alg».proof.Proof.RefGram
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: no rewrite was applied. -/
theorem preserves : Cert.preserves_Kernel_KernelIdeal := trivial

/-- Both programs end with the Gram matrix of their arguments: the kernel tile by tile (`GramBlocks.run`), the
    reference operation by operation (`RefGram.ref_eq_gram`), from arguments that agree. -/
theorem algebraic : Cert.algebraic_KernelIdeal_ReferenceIdeal := by
  intro m ρ m' ρ' _ hagree
  refine ⟨fun c => Cert.Gaussian.gram (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.GramBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefGram.ref_eq_gram, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
